-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S500000 : Shape := ⟨1, ![500000]⟩
abbrev S512x512 : Shape := ⟨2, ![512, 512]⟩
abbrev S512 : Shape := ⟨1, ![512]⟩
abbrev S1x512 : Shape := ⟨2, ![1, 512]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1x512 : S_.BroadcastsInDim S1x512 (![] : Fin 0 → Fin S1x512.rank)
  reducesTo_S1x512_S_d0_1 : S1x512.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S1 .f32) (main_v13 : IVec S_ 1) (main_v16 : IVec S1x512 1) : IVec S_ 1 :=
  let main_c_5 : IVec S_ 1 := constantI S_ 1 1#1
  let main_v17 : IVec S_ 1 := (fun x v => Host.reduce IntOp.andi x v reducesTo_S1x512_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x256 .f32) (main_arg1 : IVec S500000 32) (main_arg2 : IVec S500000 32) (main_arg3 : FVec F S512x512 .f32) (main_arg4 : FVec F S512 .f32) (main_arg5 : FVec F S1x512 .f32) (main_arg6 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S512x512 .f32 := Host.absf main_arg3
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S1x512 .f32 := Host.absf main_arg5
  let main_cst_4 : FVec F S_ .f32 := constant S_ .f32 0x7F800000#32
  let main_v15 : FVec F S1x512 .f32 := broadcastInDim S1x512 ![] bcast_S_S1x512 main_cst_4
  let main_v16 : IVec S1x512 1 := cmpf .olt main_v14 main_v15
  fn_part1 (F := F) main_arg6 main_v13 main_v16
-- ==== Kernel.lean ====
abbrev S100000x256 : Shape := ⟨2, ![100000, 256]⟩
abbrev S500000 : Shape := ⟨1, ![500000]⟩
abbrev S512x512 : Shape := ⟨2, ![512, 512]⟩
abbrev S512 : Shape := ⟨1, ![512]⟩
abbrev S1x512 : Shape := ⟨2, ![1, 512]⟩
abbrev S1 : Shape := ⟨1, ![1]⟩
abbrev S_ : Shape := ⟨0, ![]⟩
abbrev S500000x1 : Shape := ⟨2, ![500000, 1]⟩
abbrev S500000x256 : Shape := ⟨2, ![500000, 256]⟩
abbrev S500000x512 : Shape := ⟨2, ![500000, 512]⟩
abbrev S512x1 : Shape := ⟨2, ![512, 1]⟩
abbrev S1x1 : Shape := ⟨2, ![1, 1]⟩
abbrev S4000x512 : Shape := ⟨2, ![4000, 512]⟩
abbrev S4000x1 : Shape := ⟨2, ![4000, 1]⟩

abbrev nBuf : Space → Nat
  | .hbm => 35
  | .vmem => 8
  | .smem => 0
  | _ => 0

abbrev bufTy : (tb : Table) → Fin (tcTables nBuf tb) → BufTy
  | .hbm, ⟨0, _⟩ => ⟨S100000x256, .f32⟩
  | .hbm, ⟨1, _⟩ => ⟨S500000, .i32⟩
  | .hbm, ⟨2, _⟩ => ⟨S500000, .i32⟩
  | .hbm, ⟨3, _⟩ => ⟨S512x512, .f32⟩
  | .hbm, ⟨4, _⟩ => ⟨S512, .f32⟩
  | .hbm, ⟨5, _⟩ => ⟨S1x512, .f32⟩
  | .hbm, ⟨6, _⟩ => ⟨S1, .f32⟩
  | .hbm, ⟨7, _⟩ => ⟨S100000x256, .bf16⟩
  | .hbm, ⟨8, _⟩ => ⟨S_, .i32⟩
  | .hbm, ⟨9, _⟩ => ⟨S500000, .i32⟩
  | .hbm, ⟨10, _⟩ => ⟨S500000, .i1⟩
  | .hbm, ⟨11, _⟩ => ⟨S_, .i32⟩
  | .hbm, ⟨12, _⟩ => ⟨S500000, .i32⟩
  | .hbm, ⟨13, _⟩ => ⟨S500000, .i32⟩
  | .hbm, ⟨14, _⟩ => ⟨S500000, .i32⟩
  | .hbm, ⟨15, _⟩ => ⟨S500000x1, .i32⟩
  | .hbm, ⟨16, _⟩ => ⟨S500000x256, .bf16⟩
  | .hbm, ⟨17, _⟩ => ⟨S_, .i32⟩
  | .hbm, ⟨18, _⟩ => ⟨S500000, .i32⟩
  | .hbm, ⟨19, _⟩ => ⟨S500000, .i1⟩
  | .hbm, ⟨20, _⟩ => ⟨S_, .i32⟩
  | .hbm, ⟨21, _⟩ => ⟨S500000, .i32⟩
  | .hbm, ⟨22, _⟩ => ⟨S500000, .i32⟩
  | .hbm, ⟨23, _⟩ => ⟨S500000, .i32⟩
  | .hbm, ⟨24, _⟩ => ⟨S500000x1, .i32⟩
  | .hbm, ⟨25, _⟩ => ⟨S500000x256, .bf16⟩
  | .hbm, ⟨26, _⟩ => ⟨S500000x512, .bf16⟩
  | .hbm, ⟨27, _⟩ => ⟨S512x512, .bf16⟩
  | .hbm, ⟨28, _⟩ => ⟨S512x512, .bf16⟩
  | .hbm, ⟨29, _⟩ => ⟨S1x512, .bf16⟩
  | .hbm, ⟨30, _⟩ => ⟨S512x1, .bf16⟩
  | .hbm, ⟨31, _⟩ => ⟨S1x512, .f32⟩
  | .hbm, ⟨32, _⟩ => ⟨S1x1, .f32⟩
  | .hbm, ⟨33, _⟩ => ⟨S500000x1, .f32⟩
  | .hbm, ⟨34, _⟩ => ⟨S500000, .f32⟩
  | .local _ .vmem, ⟨0, _⟩ => ⟨S4000x512, .bf16⟩
  | .local _ .vmem, ⟨1, _⟩ => ⟨S4000x512, .bf16⟩
  | .local _ .vmem, ⟨2, _⟩ => ⟨S512x512, .bf16⟩
  | .local _ .vmem, ⟨3, _⟩ => ⟨S1x512, .f32⟩
  | .local _ .vmem, ⟨4, _⟩ => ⟨S512x1, .bf16⟩
  | .local _ .vmem, ⟨5, _⟩ => ⟨S1x1, .f32⟩
  | .local _ .vmem, ⟨6, _⟩ => ⟨S4000x1, .f32⟩
  | .local _ .vmem, ⟨7, _⟩ => ⟨S4000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  bcast_S_S500000 : S_.BroadcastsInDim S500000 (![] : Fin 0 → Fin S500000.rank)
  bcast_S500000_S500000x1_0 : S500000.BroadcastsInDim S500000x1 (![0] : Fin 1 → Fin S500000x1.rank)
  concatenates_S500000x256_S500000x256_S500000x512_d1 : Shape.Concatenates [S500000x256, S500000x256] S500000x512 1
  transposes_S512x512_S512x512_1_0 : S512x512.Transposes [1, 0] S512x512
  transposes_S1x512_S512x1_1_0 : S1x512.Transposes [1, 0] S512x1
  shapeCasts_S512_S1x512 : S512.ShapeCasts S1x512
  shapeCasts_S1_S1x1 : S1.ShapeCasts S1x1
  inb_S4000x512_S4000x512_0_0 : ∀ a, (![0, 0] : Fin 2 → Nat) a + S4000x512.size a ≤ S4000x512.size a
  h_S4000x512 : 0 < S4000x512.numel
  shapeCasts_S4000x512_S4000x512 : S4000x512.ShapeCasts S4000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4000x512 : S1x512.Broadcasts S4000x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  shapeCasts_S500000x1_S500000 : S500000x1.ShapeCasts S500000
  gather_S100000x256_S500000x1_S500000x256_1_0_n_n_0_1_1256_wf : GatherDims.WF S100000x256 S500000x1 S500000x256 [1] [0] [] [0] [] 1 ![1, 256]
  dot_S4000x512_S512x512_S4000x512_1_0_0_1_n_n_wf : DotDims.WF S4000x512 S512x512 S4000x512 [1] [0] [0] [1] [] []
  dot_S4000x512_S512x1_S4000x1_1_0_0_1_n_n_wf : DotDims.WF S4000x512 S512x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S500000x512.size a
  hwx0_0 : ∀ i : grid0.Coords, EltTy.bits .bf16 = 32 ∨ (Rect.block (s := S500000x512) S4000x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S512x1.size a
  hwx0_3 : ∀ i : grid0.Coords, EltTy.bits .bf16 = 32 ∨ (Rect.block (s := S512x1) S512x1.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x1.size a ≤ S500000x1.size a
  hwx0_5 : ∀ i : grid0.Coords, EltTy.bits .f32 = 32 ∨ (Rect.block (s := S500000x1) S4000x1.size (cc0_transform_5 i) (hinb0_5 i)).WholeWords (EltTy.packing .f32)

variable [Facts₀]

def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def dot_S4000x512_S512x512_S4000x512_1_0_0_1_n_n : DotDims S4000x512 S512x512 S4000x512 where
  lhsContracting := [1]
  rhsContracting := [0]
  lhsNonContracting := [0]
  rhsNonContracting := [1]
  lhsBatch := []
  rhsBatch := []
  wf := dot_S4000x512_S512x512_S4000x512_1_0_0_1_n_n_wf
def dot_S4000x512_S512x1_S4000x1_1_0_0_1_n_n : DotDims S4000x512 S512x1 S4000x1 where
  lhsContracting := [1]
  rhsContracting := [0]
  lhsNonContracting := [0]
  rhsNonContracting := [1]
  lhsBatch := []
  rhsBatch := []
  wf := dot_S4000x512_S512x1_S4000x1_1_0_0_1_n_n_wf

abbrev win0_0 : Pipeline.Window sig grid0 :=
  Pipeline.Window.ofSpec (Memref.whole main_v15) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S512x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S4000x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x256 : Shape := ⟨2, ![100000, 256]⟩
abbrev S500000 : Shape := ⟨1, ![500000]⟩
abbrev S512x512 : Shape := ⟨2, ![512, 512]⟩
abbrev S512 : Shape := ⟨1, ![512]⟩
abbrev S1x512 : Shape := ⟨2, ![1, 512]⟩
abbrev S1 : Shape := ⟨1, ![1]⟩
abbrev S_ : Shape := ⟨0, ![]⟩
abbrev S500000x1 : Shape := ⟨2, ![500000, 1]⟩
abbrev S500000x256 : Shape := ⟨2, ![500000, 256]⟩
abbrev S500000x512 : Shape := ⟨2, ![500000, 512]⟩
abbrev S1x1 : Shape := ⟨2, ![1, 1]⟩

abbrev nBuf : Space → Nat
  | .hbm => 38
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S500000, .i32⟩
  | .hbm, ⟨2, _⟩ => ⟨S500000, .i32⟩
  | .hbm, ⟨3, _⟩ => ⟨S512x512, .f32⟩
  | .hbm, ⟨4, _⟩ => ⟨S512, .f32⟩
  | .hbm, ⟨5, _⟩ => ⟨S1x512, .f32⟩
  | .hbm, ⟨6, _⟩ => ⟨S1, .f32⟩
  | .hbm, ⟨7, _⟩ => ⟨S_, .i32⟩
  | .hbm, ⟨8, _⟩ => ⟨S500000, .i32⟩
  | .hbm, ⟨9, _⟩ => ⟨S500000, .i1⟩
  | .hbm, ⟨10, _⟩ => ⟨S_, .i32⟩
  | .hbm, ⟨11, _⟩ => ⟨S500000, .i32⟩
  | .hbm, ⟨12, _⟩ => ⟨S500000, .i32⟩
  | .hbm, ⟨13, _⟩ => ⟨S500000, .i32⟩
  | .hbm, ⟨14, _⟩ => ⟨S500000x1, .i32⟩
  | .hbm, ⟨15, _⟩ => ⟨S500000x256, .f32⟩
  | .hbm, ⟨16, _⟩ => ⟨S_, .i32⟩
  | .hbm, ⟨17, _⟩ => ⟨S500000, .i32⟩
  | .hbm, ⟨18, _⟩ => ⟨S500000, .i1⟩
  | .hbm, ⟨19, _⟩ => ⟨S_, .i32⟩
  | .hbm, ⟨20, _⟩ => ⟨S500000, .i32⟩
  | .hbm, ⟨21, _⟩ => ⟨S500000, .i32⟩
  | .hbm, ⟨22, _⟩ => ⟨S500000, .i32⟩
  | .hbm, ⟨23, _⟩ => ⟨S500000x1, .i32⟩
  | .hbm, ⟨24, _⟩ => ⟨S500000x256, .f32⟩
  | .hbm, ⟨25, _⟩ => ⟨S500000x512, .f32⟩
  | .hbm, ⟨26, _⟩ => ⟨S500000x512, .f32⟩
  | .hbm, ⟨27, _⟩ => ⟨S1x512, .f32⟩
  | .hbm, ⟨28, _⟩ => ⟨S500000x512, .f32⟩
  | .hbm, ⟨29, _⟩ => ⟨S500000x512, .f32⟩
  | .hbm, ⟨30, _⟩ => ⟨S_, .f32⟩
  | .hbm, ⟨31, _⟩ => ⟨S500000x512, .f32⟩
  | .hbm, ⟨32, _⟩ => ⟨S500000x512, .f32⟩
  | .hbm, ⟨33, _⟩ => ⟨S500000x1, .f32⟩
  | .hbm, ⟨34, _⟩ => ⟨S1x1, .f32⟩
  | .hbm, ⟨35, _⟩ => ⟨S500000x1, .f32⟩
  | .hbm, ⟨36, _⟩ => ⟨S500000x1, .f32⟩
  | .hbm, ⟨37, _⟩ => ⟨S500000, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_cst : Ref sig .tc := ⟨.hbm, 30, rfl⟩
abbrev main_call0_v0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  concatenates_S500000x256_S500000x256_S500000x512_d1 : Shape.Concatenates [S500000x256, S500000x256] S500000x512 1
  bcast_S512_S1x512_1 : S512.BroadcastsInDim S1x512 (![1] : Fin 1 → Fin S1x512.rank)
  bcast_S1x512_S500000x512_0_1 : S1x512.BroadcastsInDim S500000x512 (![0, 1] : Fin 2 → Fin S500000x512.rank)
  bcast_S_S500000x512 : S_.BroadcastsInDim S500000x512 (![] : Fin 0 → Fin S500000x512.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  shapeCasts_S500000x1_S500000 : S500000x1.ShapeCasts S500000
  gather_S100000x256_S500000x1_S500000x256_1_0_n_n_0_1_1256_wf : GatherDims.WF S100000x256 S500000x1 S500000x256 [1] [0] [] [0] [] 1 ![1, 256]
  dot_S500000x512_S512x512_S500000x512_1_1_0_0_n_n_wf : DotDims.WF S500000x512 S512x512 S500000x512 [1] [1] [0] [0] [] []
  dot_S500000x512_S1x512_S500000x1_1_1_0_0_n_n_wf : DotDims.WF S500000x512 S1x512 S500000x1 [1] [1] [0] [0] [] []

variable [Facts₀]

def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def dot_S500000x512_S512x512_S500000x512_1_1_0_0_n_n : DotDims S500000x512 S512x512 S500000x512 where
  lhsContracting := [1]
  rhsContracting := [1]
  lhsNonContracting := [0]
  rhsNonContracting := [0]
  lhsBatch := []
  rhsBatch := []
  wf := dot_S500000x512_S512x512_S500000x512_1_1_0_0_n_n_wf
def dot_S500000x512_S1x512_S500000x1_1_1_0_0_n_n : DotDims S500000x512 S1x512 S500000x1 where
  lhsContracting := [1]
  rhsContracting := [1]
  lhsNonContracting := [0]
  rhsNonContracting := [0]
  lhsBatch := []
  rhsBatch := []
  wf := dot_S500000x512_S1x512_S500000x1_1_1_0_0_n_n_wf

class Facts : Prop extends Facts₀ where

variable [Facts]
-- ==== Proof.Score.lean ====
/-
  The edge score of a two-layer perceptron as ONE function of its five arrays, over the extended reals.
  For edge `e`, with `he` the [500000, 512] array of concatenated endpoint features,
    hidden e k = max (Σ_d he[e,d] · w1[k,d] + b1[k]) 0        (k < 512)
    score e    = Σ_k hidden e k · w2[0,k] + b2[0].
  Both programs compute this function: the kernel through a transposed copy of each weight matrix and a matrix
  product into a zero accumulator, row block by row block; the reference through two contractions over the second
  axes. No law beyond reading each sum at an index is used, so nothing here needs the inputs to be finite.
-/
import Idealize.ShloMosaic.PureOps.Ideal
import Idealize.ShloMosaic.Lib.ValueIdx

noncomputable section

namespace Cert.EdgeScore

open Idealize.ShloMosaic Idealize.ShloMosaic.ValueIdx

/-- Hidden unit `k` of edge `e`: the affine map of the edge's 512 features by row `k` of `w1`, clamped below at zero. -/
def hidden (he : FVec Ideal ⟨2, ![500000, 512]⟩ .f32) (w1 : FVec Ideal ⟨2, ![512, 512]⟩ .f32)
    (b1 : FVec Ideal ⟨1, ![512]⟩ .f32) (e : Fin 500000) (k : Fin 512) : EReal :=
  max ((∑ d : Fin 512, he (ix2 e d) * w1 (ix2 k d)) + b1 (ix1 k)) (Ideal.ofBits .f32 0x00000000#32)

/-- The score of every edge: the hidden units weighted by the one row of `w2`, plus the output bias. -/
def score (he : FVec Ideal ⟨2, ![500000, 512]⟩ .f32) (w1 : FVec Ideal ⟨2, ![512, 512]⟩ .f32)
    (b1 : FVec Ideal ⟨1, ![512]⟩ .f32) (w2 : FVec Ideal ⟨2, ![1, 512]⟩ .f32) (b2 : FVec Ideal ⟨1, ![1]⟩ .f32) :
    FVec Ideal ⟨1, ![500000]⟩ .f32 :=
  fun i => (∑ k : Fin 512, hidden he w1 b1 (i 0) k * w2 (ix2 0 k)) + b2 (ix1 0)

end Cert.EdgeScore

end
-- ==== Proof.RefScore.lean ====
/-
  The reference's result is the edge score of the concatenated gathered features.
  Its last stage is read one operation at a time: the reshape [500000,1] → [500000] reads row `e`, column 0; the output
  contraction is the sum over `k` of the clamped hidden value at (e, k) times w2[0,k]; the hidden value is the first
  contraction, the sum over `d` of he[e,d] · w1[k,d], plus the bias broadcast along the rows, clamped at the zero
  constant; the output bias is broadcast to every row. What is left after these readings is that the composed index
  functions are the coordinate pairs (e, d), (k, d), (0, k) and the one-entry indices.
-/
import proofs.«163098_j84121229460231_1_alg».proof.Proof.Gen.ReferenceIdeal.Read
import proofs.«163098_j84121229460231_1_alg».proof.Proof.Score

noncomputable section

namespace Cert.EdgeScore.Ref

open Cert.ReferenceIdeal Cert.ReferenceIdeal.Read Idealize.ShloMosaic Idealize.ShloMosaic.ValueIdx

theorem ref_score (x0 : (⟨S100000x256, .f32⟩ : BufTy).Contents (Elt Ideal)) (x1 x2 : (⟨S500000, .i32⟩ : BufTy).Contents (Elt Ideal))
    (x3 : (⟨S512x512, .f32⟩ : BufTy).Contents (Elt Ideal)) (x4 : (⟨S512, .f32⟩ : BufTy).Contents (Elt Ideal))
    (x5 : (⟨S1x512, .f32⟩ : BufTy).Contents (Elt Ideal)) (x6 : (⟨S1, .f32⟩ : BufTy).Contents (Elt Ideal)) :
    val_main_v24 (F := Ideal) x0 x1 x2 x3 x4 x5 x6
      = Cert.EdgeScore.score (val_main_v14 (F := Ideal) x0 x1 x2) x3 x4 x5 x6 := by
  funext i
  obtain ⟨e, rfl⟩ : ∃ e : Fin 500000, i = ix1 e := ⟨i 0, eq_ix1 i⟩
  have hrow : idx_main_v24 (ix1 e) = ix2 e (0 : Fin 1) := funext fun a => Fin.ext (by
    match a with
    | ⟨0, _⟩ => exact Nat.div_one _
    | ⟨1, _⟩ => rfl)
  have hl20 : ∀ k : Fin 512, lidx_main_v20 (ix2 e (0 : Fin 1)) k = ix2 e k := fun k => funext fun a => Fin.ext (by
    match a with
    | ⟨0, _⟩ => rfl
    | ⟨1, _⟩ => rfl)
  have hr20 : ∀ k : Fin 512, ridx_main_v20 (ix2 e (0 : Fin 1)) k = ix2 (0 : Fin 1) k := fun k => funext fun a => Fin.ext (by
    match a with
    | ⟨0, _⟩ => rfl
    | ⟨1, _⟩ => rfl)
  have hl15 : ∀ k d : Fin 512, lidx_main_v15 (ix2 e k) d = ix2 e d := fun k d => funext fun a => Fin.ext (by
    match a with
    | ⟨0, _⟩ => rfl
    | ⟨1, _⟩ => rfl)
  have hr15 : ∀ k d : Fin 512, ridx_main_v15 (ix2 e k) d = ix2 k d := fun k d => funext fun a => Fin.ext (by
    match a with
    | ⟨0, _⟩ => rfl
    | ⟨1, _⟩ => rfl)
  have hb1 : ∀ k : Fin 512, idx_main_v16 (idx_main_v17 (ix2 e k)) = ix1 k := fun k => funext fun a => Fin.ext (by
    match a with
    | ⟨0, _⟩ => rfl)
  have hb2 : idx_main_v21 (idx_main_v22 (ix2 e (0 : Fin 1))) = ix1 (0 : Fin 1) := funext fun a => Fin.ext (by
    match a with
    | ⟨0, _⟩ => rfl)
  rw [val_main_v24_apply, hrow, val_main_v23_apply, val_main_v20_apply, val_main_v22_apply, val_main_v21_apply, hb2]
  unfold Cert.EdgeScore.score
  rw [Ideal.addf_def]
  refine congrArg (· + x6 (ix1 (0 : Fin 1))) (Finset.sum_congr rfl fun k _ => ?_)
  rw [hl20 k, hr20 k, val_main_v19_apply, val_main_v18_apply, val_main_v15_apply, val_main_v17_apply, val_main_v16_apply,
    hb1 k, val_main_call0_v0_apply, val_main_call0_cst_apply]
  unfold Cert.EdgeScore.hidden
  rw [Ideal.maximumf_def, Ideal.addf_def, Ideal.ofBits_def]
  refine congrArg (fun s => max (s + x4 (ix1 k)) (Ideal.ofBits .f32 0x00000000#32) * x5 (ix2 (0 : Fin 1) k))
    (Finset.sum_congr rfl fun d _ => ?_)
  rw [hl15 k d, hr15 k d]

end Cert.EdgeScore.Ref

end
-- ==== Proof.Payload.lean ====
/-
  What the kernel body stores, read at one row of the block.
  The body loads a [4000, 512] block of edge features, the [512, 512] transposed first-layer matrix, the [1, 512] bias
  row, the [512, 1] transposed second-layer matrix and the [1, 1] output bias, and stores the [4000, 1] column
    (max (x0 · x1 + x2) 0) · x3 + x4
  with both products accumulated from zero. At the extended reals a product into the zero accumulator is the plain sum
  over the contracted axis, so row `r` of the stored column is
    Σ_k max (Σ_d x0[r,d] · x1[d,k] + x2[0,k]) 0 · x3[k,0] + x4[0,0].
  The two narrowings to the 16-bit format between the steps are the identity there.
-/
import proofs.«163098_j84121229460231_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.EdgeScore.Body

open Cert.KernelIdeal Cert.KernelIdeal.Gen Idealize.ShloMosaic Idealize.ShloMosaic.ValueIdx

/-! ## The first product: [4000, 512] × [512, 512], contracting the left's columns with the right's rows -/

theorem lhs_hid_0 (i : S4000x512.Idx) (q : dot_S4000x512_S512x512_S4000x512_1_0_0_1_n_n.contr.Idx) :
    (dot_S4000x512_S512x512_S4000x512_1_0_0_1_n_n.lhsIdx i q 0).val = (i 0).val := by
  unfold DotDims.lhsIdx
  rw [dif_neg (show ¬(0 : Fin S4000x512.rank) ∈ dot_S4000x512_S512x512_S4000x512_1_0_0_1_n_n.lhsBatch by decide), dif_pos (show (0 : Fin S4000x512.rank) ∈ dot_S4000x512_S512x512_S4000x512_1_0_0_1_n_n.lhsNonContracting by decide)]
  rfl
theorem lhs_hid_1 (i : S4000x512.Idx) (q : dot_S4000x512_S512x512_S4000x512_1_0_0_1_n_n.contr.Idx) :
    (dot_S4000x512_S512x512_S4000x512_1_0_0_1_n_n.lhsIdx i q 1).val = (q ⟨0, by decide⟩).val :=
  dot_S4000x512_S512x512_S4000x512_1_0_0_1_n_n.lhsIdx_val_of_single rfl i q
theorem rhs_hid_0 (i : S4000x512.Idx) (q : dot_S4000x512_S512x512_S4000x512_1_0_0_1_n_n.contr.Idx) :
    (dot_S4000x512_S512x512_S4000x512_1_0_0_1_n_n.rhsIdx i q 0).val = (q ⟨0, by decide⟩).val :=
  dot_S4000x512_S512x512_S4000x512_1_0_0_1_n_n.rhsIdx_val_of_single rfl i q
theorem rhs_hid_1 (i : S4000x512.Idx) (q : dot_S4000x512_S512x512_S4000x512_1_0_0_1_n_n.contr.Idx) :
    (dot_S4000x512_S512x512_S4000x512_1_0_0_1_n_n.rhsIdx i q 1).val = (i 1).val := by
  unfold DotDims.rhsIdx
  rw [dif_neg (show ¬(1 : Fin S512x512.rank) ∈ dot_S4000x512_S512x512_S4000x512_1_0_0_1_n_n.rhsBatch by decide), dif_pos (show (1 : Fin S512x512.rank) ∈ dot_S4000x512_S512x512_S4000x512_1_0_0_1_n_n.rhsNonContracting by decide)]
  rfl

/-- Entry (r, k) of the first product from zero: the sum over `d` of left[r,d] · right[d,k]. -/
theorem hid_product_apply (l : FVec Ideal S4000x512 .bf16) (w : FVec Ideal S512x512 .bf16) (r : Fin 4000) (k : Fin 512) :
    matmul dot_S4000x512_S512x512_S4000x512_1_0_0_1_n_n none l w (constant (F := Ideal) S4000x512 .f32 0x00000000#32) (ix2 r k)
      = ∑ d : Fin 512, l (ix2 r d) * w (ix2 d k) := by
  simp only [matmul]
  rw [Ideal.matmul_constant_zero_apply, ← Equiv.sum_comp (ValueIdx.contrEquiv1 dot_S4000x512_S512x512_S4000x512_1_0_0_1_n_n 512 rfl rfl).symm]
  refine Finset.sum_congr rfl fun d _ => ?_
  have hd := ValueIdx.contrEquiv1_symm_val dot_S4000x512_S512x512_S4000x512_1_0_0_1_n_n 512 rfl rfl d
  have el : dot_S4000x512_S512x512_S4000x512_1_0_0_1_n_n.lhsIdx (ix2 r k) ((ValueIdx.contrEquiv1 dot_S4000x512_S512x512_S4000x512_1_0_0_1_n_n 512 rfl rfl).symm d) = ix2 r d := funext fun a => Fin.ext (by
    match a with
    | ⟨0, _⟩ => exact lhs_hid_0 _ _
    | ⟨1, _⟩ => exact (lhs_hid_1 _ _).trans hd)
  have er : dot_S4000x512_S512x512_S4000x512_1_0_0_1_n_n.rhsIdx (ix2 r k) ((ValueIdx.contrEquiv1 dot_S4000x512_S512x512_S4000x512_1_0_0_1_n_n 512 rfl rfl).symm d) = ix2 d k := funext fun a => Fin.ext (by
    match a with
    | ⟨0, _⟩ => exact (rhs_hid_0 _ _).trans hd
    | ⟨1, _⟩ => exact rhs_hid_1 _ _)
  rw [el, er]

/-! ## The second product: [4000, 512] × [512, 1] -/

theorem lhs_out_0 (i : S4000x1.Idx) (q : dot_S4000x512_S512x1_S4000x1_1_0_0_1_n_n.contr.Idx) :
    (dot_S4000x512_S512x1_S4000x1_1_0_0_1_n_n.lhsIdx i q 0).val = (i 0).val := by
  unfold DotDims.lhsIdx
  rw [dif_neg (show ¬(0 : Fin S4000x512.rank) ∈ dot_S4000x512_S512x1_S4000x1_1_0_0_1_n_n.lhsBatch by decide), dif_pos (show (0 : Fin S4000x512.rank) ∈ dot_S4000x512_S512x1_S4000x1_1_0_0_1_n_n.lhsNonContracting by decide)]
  rfl
theorem lhs_out_1 (i : S4000x1.Idx) (q : dot_S4000x512_S512x1_S4000x1_1_0_0_1_n_n.contr.Idx) :
    (dot_S4000x512_S512x1_S4000x1_1_0_0_1_n_n.lhsIdx i q 1).val = (q ⟨0, by decide⟩).val :=
  dot_S4000x512_S512x1_S4000x1_1_0_0_1_n_n.lhsIdx_val_of_single rfl i q
theorem rhs_out_0 (i : S4000x1.Idx) (q : dot_S4000x512_S512x1_S4000x1_1_0_0_1_n_n.contr.Idx) :
    (dot_S4000x512_S512x1_S4000x1_1_0_0_1_n_n.rhsIdx i q 0).val = (q ⟨0, by decide⟩).val :=
  dot_S4000x512_S512x1_S4000x1_1_0_0_1_n_n.rhsIdx_val_of_single rfl i q
theorem rhs_out_1 (i : S4000x1.Idx) (q : dot_S4000x512_S512x1_S4000x1_1_0_0_1_n_n.contr.Idx) :
    (dot_S4000x512_S512x1_S4000x1_1_0_0_1_n_n.rhsIdx i q 1).val = (i 1).val := by
  unfold DotDims.rhsIdx
  rw [dif_neg (show ¬(1 : Fin S512x1.rank) ∈ dot_S4000x512_S512x1_S4000x1_1_0_0_1_n_n.rhsBatch by decide), dif_pos (show (1 : Fin S512x1.rank) ∈ dot_S4000x512_S512x1_S4000x1_1_0_0_1_n_n.rhsNonContracting by decide)]
  rfl

/-- Entry (r, 0) of the second product from zero: the sum over `k` of left[r,k] · right[k,0]. -/
theorem out_product_apply (l : FVec Ideal S4000x512 .bf16) (w : FVec Ideal S512x1 .bf16) (r : Fin 4000) :
    matmul dot_S4000x512_S512x1_S4000x1_1_0_0_1_n_n none l w (constant (F := Ideal) S4000x1 .f32 0x00000000#32) (ix2 r (0 : Fin 1))
      = ∑ k : Fin 512, l (ix2 r k) * w (ix2 k (0 : Fin 1)) := by
  simp only [matmul]
  rw [Ideal.matmul_constant_zero_apply, ← Equiv.sum_comp (ValueIdx.contrEquiv1 dot_S4000x512_S512x1_S4000x1_1_0_0_1_n_n 512 rfl rfl).symm]
  refine Finset.sum_congr rfl fun k _ => ?_
  have hk := ValueIdx.contrEquiv1_symm_val dot_S4000x512_S512x1_S4000x1_1_0_0_1_n_n 512 rfl rfl k
  have el : dot_S4000x512_S512x1_S4000x1_1_0_0_1_n_n.lhsIdx (ix2 r (0 : Fin 1)) ((ValueIdx.contrEquiv1 dot_S4000x512_S512x1_S4000x1_1_0_0_1_n_n 512 rfl rfl).symm k) = ix2 r k := funext fun a => Fin.ext (by
    match a with
    | ⟨0, _⟩ => exact lhs_out_0 _ _
    | ⟨1, _⟩ => exact (lhs_out_1 _ _).trans hk)
  have er : dot_S4000x512_S512x1_S4000x1_1_0_0_1_n_n.rhsIdx (ix2 r (0 : Fin 1)) ((ValueIdx.contrEquiv1 dot_S4000x512_S512x1_S4000x1_1_0_0_1_n_n 512 rfl rfl).symm k) = ix2 k (0 : Fin 1) := funext fun a => Fin.ext (by
    match a with
    | ⟨0, _⟩ => exact (rhs_out_0 _ _).trans hk
    | ⟨1, _⟩ => exact rhs_out_1 _ _)
  rw [el, er]

/-! ## The two biases, broadcast along the rows -/

/-- The [1, 512] bias row broadcast to [4000, 512]: entry (r, k) is entry (0, k). -/
theorem hid_bias_apply (b : FVec Ideal S1x512 .f32) (h : S1x512.Broadcasts S4000x512) (r : Fin 4000) (k : Fin 512) :
    broadcastTo S4000x512 b h (ix2 r k) = b (ix2 (0 : Fin 1) k) :=
  broadcastTo_apply b h (ix2 r k) (ix2 (0 : Fin 1) k) (fun a => match a with
    | ⟨0, _⟩ => by show (0 : Nat) = if (1 : Nat) = 1 then 0 else _; rw [if_pos rfl]
    | ⟨1, _⟩ => by show k.val = if (512 : Nat) = 1 then 0 else _; rw [if_neg (by decide)]; rfl)

/-- The [1, 1] output bias broadcast to [4000, 1]: every entry is entry (0, 0). -/
theorem out_bias_apply (b : FVec Ideal S1x1 .f32) (h : S1x1.Broadcasts S4000x1) (r : Fin 4000) :
    broadcastTo S4000x1 b h (ix2 r (0 : Fin 1)) = b (ix2 (0 : Fin 1) (0 : Fin 1)) :=
  broadcastTo_apply b h (ix2 r (0 : Fin 1)) (ix2 (0 : Fin 1) (0 : Fin 1)) (fun a => match a with
    | ⟨0, _⟩ => by show (0 : Nat) = if (1 : Nat) = 1 then 0 else _; rw [if_pos rfl]
    | ⟨1, _⟩ => by show (0 : Nat) = if (1 : Nat) = 1 then 0 else _; rw [if_pos rfl])

/-! ## The stored column at a row -/

/-- Row `r` of what the body stores, from its five loaded blocks. -/
theorem stored_apply (x0 : Vec Ideal S4000x512 .bf16) (x1 : Vec Ideal S512x512 .bf16) (x2 : Vec Ideal S1x512 .f32)
    (x3 : Vec Ideal S512x1 .bf16) (x4 : Vec Ideal S1x1 .f32) (r : Fin 4000) :
    k0_pay1 (F := Ideal) x0 x1 x2 x3 x4 (ix2 r (0 : Fin 1))
      = (∑ k : Fin 512, max ((∑ d : Fin 512, x0 (ix2 r d) * x1 (ix2 d k)) + x2 (ix2 (0 : Fin 1) k)) (Ideal.ofBits .f32 0x00000000#32)
            * x3 (ix2 k (0 : Fin 1)))
        + x4 (ix2 (0 : Fin 1) (0 : Fin 1)) := by
  unfold k0_pay1
  simp only [shapeCast_self]
  rw [addf_apply, out_product_apply, out_bias_apply]
  refine congrArg (· + x4 (ix2 (0 : Fin 1) (0 : Fin 1))) (Finset.sum_congr rfl fun k _ => ?_)
  rw [truncf_apply, maximumf_apply, addf_apply, hid_product_apply, hid_bias_apply, broadcast_apply]
  rfl

end Cert.EdgeScore.Body

end
-- ==== Proof.Operands.lean ====
/-
  The kernel's four small operands, as the launch finds them, in terms of the arguments.
  Before the launch the host narrows the first-layer matrix to the 16-bit format and transposes it, does the same to
  the one-row second-layer matrix, and reshapes the two bias vectors to one-row matrices. At the extended reals the
  narrowing is the identity, so
    first-layer operand  [d, k] = W1[k, d]         second-layer operand [k, 0] = W2[0, k]
    hidden bias operand  [0, k] = b1[k]            output bias operand  [0, 0] = b2[0].
-/
import proofs.«163098_j84121229460231_1_alg».proof.Proof.Gen.KernelIdeal.Frame
import Idealize.ShloMosaic.Lib.Pipeline.Value
import Idealize.ShloMosaic.Lib.ValueIdx
import Idealize.ShloMosaic.Lib.StableHlo.Run

noncomputable section

namespace Cert.EdgeScore.Operands

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The first-layer operand is the transpose of the narrowed first-layer matrix. -/
theorem w1_operand (c : Dev nD) :
    (V m c main_v17 : S512x512.Idx → EReal)
      = (transpose S512x512 [1, 0] (truncf (F := Ideal) .bf16 (m ((c : Thread nD τ).loc main_arg3) : FVec Ideal S512x512 .f32) bitsLt_bf16_f32) transposes_S512x512_S512x512_1_0 : S512x512.Idx → EReal) := by
  show StableHlo.after hostOps0 (fun b => m (c, b)) (Proc.devRef .tc main_v17) = _
  after_results

/-- Read at an index: entry (d, k) is W1[k, d]. -/
theorem w1_operand_apply (c : Dev nD) (d k : Fin 512) :
    (V m c main_v17 : S512x512.Idx → EReal) (ix2 d k) = (m ((c : Thread nD τ).loc main_arg3) : S512x512.Idx → EReal) (ix2 k d) := by
  rw [w1_operand]
  refine (transpose_apply [1, 0] _ transposes_S512x512_S512x512_1_0 (ix2 d k) (ix2 k d) (fun b => match b with
    | ⟨0, _⟩ => rfl
    | ⟨1, _⟩ => rfl)).trans ?_
  rfl

/-- The second-layer operand is the transpose of the narrowed one-row second-layer matrix. -/
theorem w2_operand (c : Dev nD) :
    (V m c main_v19 : S512x1.Idx → EReal)
      = (transpose S512x1 [1, 0] (truncf (F := Ideal) .bf16 (m ((c : Thread nD τ).loc main_arg5) : FVec Ideal S1x512 .f32) bitsLt_bf16_f32) transposes_S1x512_S512x1_1_0 : S512x1.Idx → EReal) := by
  show StableHlo.after hostOps0 (fun b => m (c, b)) (Proc.devRef .tc main_v19) = _
  after_results

/-- Read at an index: entry (k, 0) is W2[0, k]. -/
theorem w2_operand_apply (c : Dev nD) (k : Fin 512) :
    (V m c main_v19 : S512x1.Idx → EReal) (ix2 k (0 : Fin 1)) = (m ((c : Thread nD τ).loc main_arg5) : S1x512.Idx → EReal) (ix2 (0 : Fin 1) k) := by
  rw [w2_operand]
  refine (transpose_apply [1, 0] _ transposes_S1x512_S512x1_1_0 (ix2 k (0 : Fin 1)) (ix2 (0 : Fin 1) k) (fun b => match b with
    | ⟨0, _⟩ => rfl
    | ⟨1, _⟩ => rfl)).trans ?_
  rfl

/-- The hidden bias operand is the bias vector reshaped to one row. -/
theorem b1_operand (c : Dev nD) :
    (V m c main_v20 : S1x512.Idx → EReal) = shapeCast S1x512 (m ((c : Thread nD τ).loc main_arg4)) shapeCasts_S512_S1x512 := by
  show StableHlo.after hostOps0 (fun b => m (c, b)) (Proc.devRef .tc main_v20) = _
  after_results
  rfl

/-- Read at an index: entry (0, k) is b1[k]. -/
theorem b1_operand_apply (c : Dev nD) (k : Fin 512) :
    (V m c main_v20 : S1x512.Idx → EReal) (ix2 (0 : Fin 1) k) = (m ((c : Thread nD τ).loc main_arg4) : S512.Idx → EReal) (ix1 k) := by
  rw [b1_operand]
  exact shapeCast_apply _ shapeCasts_S512_S1x512 (ix2 (0 : Fin 1) k) (ix1 k)
    (by rewrite [Shape.rowMajor_val_one, Shape.rowMajor_val_two]; show k.val = 0 * 512 + k.val; omega)

/-- The output bias operand is the one-entry bias reshaped to a one-by-one matrix. -/
theorem b2_operand (c : Dev nD) :
    (V m c main_v21 : S1x1.Idx → EReal) = shapeCast S1x1 (m ((c : Thread nD τ).loc main_arg6)) shapeCasts_S1_S1x1 := by
  show StableHlo.after hostOps0 (fun b => m (c, b)) (Proc.devRef .tc main_v21) = _
  after_results
  rfl

/-- Read at an index: entry (0, 0) is b2[0]. -/
theorem b2_operand_apply (c : Dev nD) :
    (V m c main_v21 : S1x1.Idx → EReal) (ix2 (0 : Fin 1) (0 : Fin 1)) = (m ((c : Thread nD τ).loc main_arg6) : S1.Idx → EReal) (ix1 (0 : Fin 1)) := by
  rw [b2_operand]
  exact shapeCast_apply _ shapeCasts_S1_S1x1 (ix2 (0 : Fin 1) (0 : Fin 1)) (ix1 (0 : Fin 1))
    (by rewrite [Shape.rowMajor_val_one, Shape.rowMajor_val_two]; show (0 : Nat) = 0 * 1 + 0; omega)

end Cert.EdgeScore.Operands

end
-- ==== Proof.Column.lean ====
/-
  From the kernel's blocks to its result array.
  The grid has 125 points; point `t` reads rows 4000·t … 4000·t + 3999 of the edge-feature array and the four small
  operands whole, and writes back rows 4000·t … 4000·t + 3999 of a [500000, 1] column. Row `r` of what it writes is
  the body's stored value at that row, which is the score of edge 4000·t + r (the operands read back to the
  arguments). The 125 blocks tile the column (row `e` lies in block `e / 4000`), so after the launch the column holds
  every edge's score; the reshape that follows reads the column as a vector.
-/
import proofs.«163098_j84121229460231_1_alg».proof.Proof.Gen.KernelIdeal.Frame
import proofs.«163098_j84121229460231_1_alg».proof.Proof.Score
import proofs.«163098_j84121229460231_1_alg».proof.Proof.Payload
import proofs.«163098_j84121229460231_1_alg».proof.Proof.Operands
import Idealize.ShloMosaic.Lib.Pipeline.Value
import Idealize.ShloMosaic.Lib.StableHlo.Run

set_option maxRecDepth 16384

noncomputable section

namespace Cert.EdgeScore.Kernel

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.StableHlo

variable (m : (ℓ : Loc nD τ sig) → Buf (Elt Ideal) ℓ) (ρ : Dev nD → PrngReg)

theorem hz : (![0, 0] : Fin 2 → Nat) = fun _ => 0 := funext fun a => by fin_cases a <;> rfl

/-- Every edge's score, from the edge features as the launch finds them and the four weight arguments. -/
def scores (c : Dev nD) : FVec Ideal ⟨1, ![500000]⟩ .f32 :=
  Cert.EdgeScore.score (V m c main_v15) (m ((c : Thread nD τ).loc main_arg3)) (m ((c : Thread nD τ).loc main_arg4))
    (m ((c : Thread nD τ).loc main_arg5)) (m ((c : Thread nD τ).loc main_arg6))

/-- The same as a [500000, 1] column. -/
def column (c : Dev nD) : S500000x1.Idx → EReal := fun i => scores m c (ix1 (i 0))

/-- A row of the stored column is an edge's score, once each loaded block is read back to the array it is a block of:
    the feature block's row to the edge's row, the transposed matrices to the matrices, the bias rows to the biases. -/
theorem stored_is_score (he : FVec Ideal ⟨2, ![500000, 512]⟩ .f32) (w1 : FVec Ideal ⟨2, ![512, 512]⟩ .f32)
    (b1 : FVec Ideal ⟨1, ![512]⟩ .f32) (w2 : FVec Ideal ⟨2, ![1, 512]⟩ .f32) (b2 : FVec Ideal ⟨1, ![1]⟩ .f32)
    (x0 : Vec Ideal S4000x512 .bf16) (x1 : Vec Ideal S512x512 .bf16) (x2 : Vec Ideal S1x512 .f32)
    (x3 : Vec Ideal S512x1 .bf16) (x4 : Vec Ideal S1x1 .f32) (y : S4000x1.Idx) (e : Fin 500000)
    (h0 : ∀ d : Fin 512, x0 (ix2 (y 0) d) = he (ix2 e d))
    (h1 : ∀ d k : Fin 512, x1 (ix2 d k) = w1 (ix2 k d))
    (h2 : ∀ k : Fin 512, x2 (ix2 (0 : Fin 1) k) = b1 (ix1 k))
    (h3 : ∀ k : Fin 512, x3 (ix2 k (0 : Fin 1)) = w2 (ix2 (0 : Fin 1) k))
    (h4 : x4 (ix2 (0 : Fin 1) (0 : Fin 1)) = b2 (ix1 (0 : Fin 1))) :
    k0_pay1 (F := Ideal) x0 x1 x2 x3 x4 y = Cert.EdgeScore.score he w1 b1 w2 b2 (ix1 e) := by
  obtain ⟨r, q, rfl⟩ : ∃ (r : Fin 4000) (q : Fin 1), y = ix2 r q := ⟨y 0, y 1, eq_ix2 y⟩
  obtain rfl : q = 0 := Subsingleton.elim _ _
  have h0' : ∀ d : Fin 512, x0 (ix2 r d) = he (ix2 e d) := fun d => h0 d
  rw [Cert.EdgeScore.Body.stored_apply]
  simp only [h0', h1, h2, h3, h4]
  rfl

/-- The printed index maps over the grid: the feature window and the output window are at block row `t`, column block 0;
    the four small operands are always at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of the score column. -/
theorem flushed_eq (c : Dev nD) (t : Fin cfg0.N) :
    (dats m 0 c).flushed 5 t = ((cfg0.win 5).blk t).view.read (Elt Ideal) (column m c) := by
  show (cfg0.win 5).cut (grid0.coords t) ((dats m 0 c).after 5 t) = _
  rw [after0_5]
  unfold out0_5
  rw [View.canon_unit_zero hz]
  simp only [View.ld_unit_zero (S := S4000x512) hz, View.ld_unit_zero (S := S512x512) hz, View.ld_unit_zero (S := S1x512) hz,
    View.ld_unit_zero (S := S512x1) hz, View.ld_unit_zero (S := S1x1) hz]
  obtain ⟨e00, e01, e10, e11, e20, e21, e30, e31, e40, e41, e50, e51⟩ := idx_facts t
  funext j
  show k0_pay1 (F := Ideal) (iblk m c 0 t) (iblk m c 1 t) (iblk m c 2 t) (iblk m c 3 t) (iblk m c 4 t) j
    = column m c (((cfg0.win 5).blk t).view.emb j)
  refine (stored_is_score (V m c main_v15) (m ((c : Thread nD τ).loc main_arg3)) (m ((c : Thread nD τ).loc main_arg4))
    (m ((c : Thread nD τ).loc main_arg5)) (m ((c : Thread nD τ).loc main_arg6))
    (iblk m c 0 t) (iblk m c 1 t) (iblk m c 2 t) (iblk m c 3 t) (iblk m c 4 t) j ((((cfg0.win 5).blk t).view.emb j) 0)
    ?_ ?_ ?_ ?_ ?_).trans ?_
  · intro d
    show V m c main_v15 (((cfg0.win 0).blk t).view.emb (ix2 (j 0) d)) = V m c main_v15 (ix2 ((((cfg0.win 5).blk t).view.emb j) 0) d)
    refine congrArg (V m c main_v15) (funext fun a => Fin.ext ?_)
    match a with
    | ⟨0, _⟩ =>
      show win0_0.index t (0 : Fin 2) * 4000 + 1 * (j 0).val = win0_5.index t (0 : Fin 2) * 4000 + 1 * (j 0).val
      rw [e00, e50]
    | ⟨1, _⟩ =>
      show win0_0.index t (1 : Fin 2) * 512 + 1 * d.val = d.val
      rw [e01]; omega
  · intro d k
    refine Eq.trans ?_ (Cert.EdgeScore.Operands.w1_operand_apply m c d k)
    show V m c main_v17 (((cfg0.win 1).blk t).view.emb (ix2 d k)) = V m c main_v17 (ix2 d k)
    refine congrArg (V m c main_v17) (funext fun a => Fin.ext ?_)
    match a with
    | ⟨0, _⟩ =>
      show win0_1.index t (0 : Fin 2) * 512 + 1 * d.val = d.val
      rw [e10]; omega
    | ⟨1, _⟩ =>
      show win0_1.index t (1 : Fin 2) * 512 + 1 * k.val = k.val
      rw [e11]; omega
  · intro k
    refine Eq.trans ?_ (Cert.EdgeScore.Operands.b1_operand_apply m c k)
    show V m c main_v20 (((cfg0.win 2).blk t).view.emb (ix2 (0 : Fin 1) k)) = V m c main_v20 (ix2 (0 : Fin 1) k)
    refine congrArg (V m c main_v20) (funext fun a => Fin.ext ?_)
    match a with
    | ⟨0, _⟩ =>
      show win0_2.index t (0 : Fin 2) * 1 + 1 * 0 = 0
      rw [e20]
    | ⟨1, _⟩ =>
      show win0_2.index t (1 : Fin 2) * 512 + 1 * k.val = k.val
      rw [e21]; omega
  · intro k
    refine Eq.trans ?_ (Cert.EdgeScore.Operands.w2_operand_apply m c k)
    show V m c main_v19 (((cfg0.win 3).blk t).view.emb (ix2 k (0 : Fin 1))) = V m c main_v19 (ix2 k (0 : Fin 1))
    refine congrArg (V m c main_v19) (funext fun a => Fin.ext ?_)
    match a with
    | ⟨0, _⟩ =>
      show win0_3.index t (0 : Fin 2) * 512 + 1 * k.val = k.val
      rw [e30]; omega
    | ⟨1, _⟩ =>
      show win0_3.index t (1 : Fin 2) * 1 + 1 * 0 = 0
      rw [e31]
  · refine Eq.trans ?_ (Cert.EdgeScore.Operands.b2_operand_apply m c)
    show V m c main_v21 (((cfg0.win 4).blk t).view.emb (ix2 (0 : Fin 1) (0 : Fin 1))) = V m c main_v21 (ix2 (0 : Fin 1) (0 : Fin 1))
    refine congrArg (V m c main_v21) (funext fun a => Fin.ext ?_)
    match a with
    | ⟨0, _⟩ =>
      show win0_4.index t (0 : Fin 2) * 1 + 1 * 0 = 0
      rw [e40]
    | ⟨1, _⟩ =>
      show win0_4.index t (1 : Fin 2) * 1 + 1 * 0 = 0
      rw [e41]
  · rfl

/-- An index of the column is in point `t`'s block iff each coordinate is in the block's range on its axis. -/
theorem mem_blk (t : Fin cfg0.N) (i : S500000x1.Idx) :
    i ∈ ((cfg0.win 5).blk t).view.set ↔ ∀ a : Fin 2, win0_5.index t a * S4000x1.size a ≤ (i a).val ∧ (i a).val < win0_5.index t a * S4000x1.size a + S4000x1.size a := by
  show i ∈ ((View.whole main_v22).slice (win0_5.rect t)).set ↔ _
  rw [View.set_slice_whole, Rect.mem_set_unit]
  exact Iff.rfl

/-- The column after the launch holds every edge's score: row `e` is in the block of point `e / 4000`. -/
theorem column_final (c : Dev nD) : (dats m 0 c).arrAt 5 cfg0.N = column m c :=
  (dats m 0 c).arrAt_eq_of_cover 5 (column m c) (fun t _ => flushed_eq m c t) fun (i : S500000x1.Idx) => by
    have hi0 : (i 0).val < 500000 := (i 0).isLt
    have hi1 : (i 1).val < 1 := (i 1).isLt
    have hN : cfg0.N = 125 := N_0
    have ht : (i 0).val / 4000 < cfg0.N := by rw [hN]; omega
    obtain ⟨-, -, -, -, -, -, -, -, -, -, e50, e51⟩ := idx_facts ⟨(i 0).val / 4000, ht⟩
    refine ⟨⟨(i 0).val / 4000, ht⟩, flush0_5 _, ?_⟩
    rw [mem_blk]
    intro a
    match a with
    | ⟨0, _⟩ =>
      show win0_5.index ⟨(i 0).val / 4000, ht⟩ (0 : Fin 2) * 4000 ≤ (i 0).val ∧ (i 0).val < win0_5.index ⟨(i 0).val / 4000, ht⟩ (0 : Fin 2) * 4000 + 4000
      rw [e50]
      show (i 0).val / 4000 * 4000 ≤ (i 0).val ∧ (i 0).val < (i 0).val / 4000 * 4000 + 4000
      omega
    | ⟨1, _⟩ =>
      show win0_5.index ⟨(i 0).val / 4000, ht⟩ (1 : Fin 2) * 1 ≤ (i 1).val ∧ (i 1).val < win0_5.index ⟨(i 0).val / 4000, ht⟩ (1 : Fin 2) * 1 + 1
      rw [e51]
      omega

/-- The reshape after the launch reads the column as a vector: the program's result is every edge's score. -/
theorem result_eq (c : Dev nD) :
    Pipeline.afterTail₀ cfgs (dats m) 0 (V0 m) [hostOps1] c main_v23 = scores m c := by
  unfold Pipeline.afterTail₀
  show StableHlo.after hostOps1 _ (Proc.devRef .tc main_v23) = _
  after_results
  have hcol : Pipeline.withArrays (cfgs 0).spec c (V0 m c) (fun w => (dats m 0 c).arrAt w (cfgs 0).N) (Proc.devRef .tc main_v22)
      = column m c :=
    (Pipeline.withArrays_arr spec0 launch0.win.arr_inj c _ _ 5).trans (column_final m c)
  funext i
  obtain ⟨e, rfl⟩ : ∃ e : Fin 500000, i = ix1 e := ⟨i 0, eq_ix1 i⟩
  show shapeCast S500000 (Pipeline.withArrays (cfgs 0).spec c (V0 m c) (fun w => (dats m 0 c).arrAt w (cfgs 0).N) (Proc.devRef .tc main_v22))
    shapeCasts_S500000x1_S500000 (ix1 e) = scores m c (ix1 e)
  rw [hcol]
  refine (shapeCast_apply (column m c) shapeCasts_S500000x1_S500000 (ix1 e) (ix2 e (0 : Fin 1))
    (by rewrite [Shape.rowMajor_val_two, Shape.rowMajor_val_one]; show e.val * 1 + 0 = e.val; omega)).trans ?_
  rfl

/-- The kernel's run, read: every weakly fair execution ends with the result at every edge's score and the seven
    arguments as launched. -/
theorem run : θ_run defs (onTc (τ := τ) (main (F := Ideal))) ⟨m, fun _ => 0, ρ⟩ fun r => ∀ c : Dev nD,
      r.2.mem ((c.tc : Thread nD τ).loc main_v23) = scores m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v23 (Pipeline.mem_restRefs_of main_v23 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.EdgeScore.Kernel

end
-- ==== Proof.Features.lean ====
/-
  The two programs gather the same edge features.
  Both wrap a negative endpoint index by adding the number of nodes, gather the endpoint's row of the node-feature
  table for the source and for the destination, and join the two rows side by side. The kernel's host code narrows the
  table to the 16-bit format first; at the extended reals that narrowing is the identity, so the array the launch
  finds is, term for term, the reference's concatenated gather of the same arguments. Neither gather is read at an
  index: the two terms are the same function of the table and the index vectors.
-/
import proofs.«163098_j84121229460231_1_alg».proof.Proof.Gen.KernelIdeal.Frame
import proofs.«163098_j84121229460231_1_alg».proof.Proof.Gen.ReferenceIdeal.Read
import Idealize.ShloMosaic.Lib.StableHlo.Run

noncomputable section

namespace Cert.EdgeScore.Features

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The edge-feature array as the launch finds it: the two gathers of the narrowed node features, at the wrapped source
    indices and at the wrapped destination indices, joined along the feature axis. -/
def gathered (c : Dev nD) : S500000x512.Idx → EReal :=
  concatenate S500000x512 1 [⟨S500000x256, (Host.gather gather_S100000x256_S500000x1_S500000x256_1_0_n_n_0_1_1256 (truncf (F := Ideal) .bf16 (m ((c : Thread nD τ).loc main_arg0) : FVec Ideal S100000x256 .f32) bitsLt_bf16_f32) (broadcastInDim S500000x1 ![0] bcast_S500000_S500000x1_0 (select (cmpi .slt (m ((c : Thread nD τ).loc main_arg1)) (broadcastInDim S500000 ![] bcast_S_S500000 (constantI S_ 32 0#32))) (addi (m ((c : Thread nD τ).loc main_arg1)) (broadcastInDim S500000 ![] bcast_S_S500000 (constantI S_ 32 100000#32))) (m ((c : Thread nD τ).loc main_arg1)))))⟩, ⟨S500000x256, (Host.gather gather_S100000x256_S500000x1_S500000x256_1_0_n_n_0_1_1256 (truncf (F := Ideal) .bf16 (m ((c : Thread nD τ).loc main_arg0) : FVec Ideal S100000x256 .f32) bitsLt_bf16_f32) (broadcastInDim S500000x1 ![0] bcast_S500000_S500000x1_0 (select (cmpi .slt (m ((c : Thread nD τ).loc main_arg2)) (broadcastInDim S500000 ![] bcast_S_S500000 (constantI S_ 32 0#32))) (addi (m ((c : Thread nD τ).loc main_arg2)) (broadcastInDim S500000 ![] bcast_S_S500000 (constantI S_ 32 100000#32))) (m ((c : Thread nD τ).loc main_arg2)))))⟩] concatenates_S500000x256_S500000x256_S500000x512_d1

set_option maxHeartbeats 2000000 in
theorem features_term (c : Dev nD) : (V m c main_v15 : S500000x512.Idx → EReal) = gathered m c := by
  show StableHlo.after hostOps0 (fun b => m (c, b)) (Proc.devRef .tc main_v15) = _
  unfold gathered
  after_results_simp <;> rfl

/-- Narrowing to the 16-bit format is the identity at the extended reals. -/
theorem narrow_id (x : FVec Ideal S100000x256 .f32) : (truncf (F := Ideal) .bf16 x bitsLt_bf16_f32 : FVec Ideal S100000x256 .bf16) = x := rfl

/-- The edge-feature array as the launch finds it is the reference's concatenated gather of the kernel's arguments. -/
theorem features_eq (c : Dev nD) :
    (V m c main_v15 : S500000x512.Idx → EReal)
      = Cert.ReferenceIdeal.Read.val_main_v14 (F := Ideal) (m ((c : Thread nD τ).loc main_arg0))
          (m ((c : Thread nD τ).loc main_arg1)) (m ((c : Thread nD τ).loc main_arg2)) := by
  rw [features_term]
  unfold gathered
  rw [narrow_id]
  rfl

end Cert.EdgeScore.Features

end
-- ==== Proof.lean ====
/-
  An edge-scoring perceptron over a graph: for each of 500000 edges, the 256 features of its source node and of its
  destination node are joined into 512, sent through a 512 → 512 affine layer clamped below at zero, and then through
  a 512 → 1 affine layer. Over the extended reals both programs compute, for edge `e`,
    score e = Σ_k max (Σ_d he[e,d] · W1[k,d] + b1[k]) 0 · W2[0,k] + b2[0],
  where `he` is the joined gather of the node features (Proof/Score.lean).
  The kernel gathers on the host, hands the joined features to a pipeline of 125 row blocks of 4000 edges together
  with the transposed weight matrices and the reshaped biases, and reshapes the resulting column to a vector; its two
  matrix products start from a zero accumulator, so each is the plain sum over the contracted axis, and its
  narrowings to the 16-bit format are the identity (Proof/Payload.lean, Proof/Operands.lean, Proof/Column.lean).
  The reference contracts over the second axes of the untransposed matrices (Proof/RefScore.lean). The two gathered
  feature arrays are one term (Proof/Features.lean). Only the reading of sums at an index is used, no distributive or
  cancellation law, so the finiteness of the inputs is never opened.
  The three frames: the two kernel programs run to the end with their arguments unchanged by the generated frame
  modules; the reference's frame is its generated run with the result dropped. The idealization rewrote no operation,
  so its conjunct is trivial.
-/
import proofs.«163098_j84121229460231_1_alg».proof.Defs
import proofs.«163098_j84121229460231_1_alg».proof.Proof.Gen.Kernel
import proofs.«163098_j84121229460231_1_alg».proof.Proof.Gen.Kernel.Skeleton
import proofs.«163098_j84121229460231_1_alg».proof.Proof.Gen.Kernel.Launch
import proofs.«163098_j84121229460231_1_alg».proof.Proof.Gen.Kernel.Points
import proofs.«163098_j84121229460231_1_alg».proof.Proof.Gen.Kernel.Frame
import proofs.«163098_j84121229460231_1_alg».proof.Proof.Gen.KernelIdeal
import proofs.«163098_j84121229460231_1_alg».proof.Proof.Gen.KernelIdeal.Skeleton
import proofs.«163098_j84121229460231_1_alg».proof.Proof.Gen.KernelIdeal.Launch
import proofs.«163098_j84121229460231_1_alg».proof.Proof.Gen.KernelIdeal.Points
import proofs.«163098_j84121229460231_1_alg».proof.Proof.Gen.KernelIdeal.Frame
import proofs.«163098_j84121229460231_1_alg».proof.Proof.Gen.ReferenceIdeal
import proofs.«163098_j84121229460231_1_alg».proof.Proof.Gen.Pre_finite_inputs
import proofs.«163098_j84121229460231_1_alg».proof.Proof.Gen.ReferenceIdeal.Run
import proofs.«163098_j84121229460231_1_alg».proof.Proof.Gen.ReferenceIdeal.Read
import proofs.«163098_j84121229460231_1_alg».proof.Proof.Score
import proofs.«163098_j84121229460231_1_alg».proof.Proof.RefScore
import proofs.«163098_j84121229460231_1_alg».proof.Proof.Payload
import proofs.«163098_j84121229460231_1_alg».proof.Proof.Operands
import proofs.«163098_j84121229460231_1_alg».proof.Proof.Column
import proofs.«163098_j84121229460231_1_alg».proof.Proof.Features
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the seven arguments, the kernel's result and the reference's result are the same
    vector of edge scores: the kernel's run ends at the scores of its own gathered features, the reference's last
    stage is the scores of its gathered features, and the two feature arrays are one term of the arguments. -/
theorem algebraic : Cert.algebraic_KernelIdeal_ReferenceIdeal := by
  intro m ρ m' ρ' _ hagree
  refine ⟨fun c => Cert.EdgeScore.Kernel.scores m c, Cert.EdgeScore.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v24_eq, Cert.EdgeScore.Ref.ref_score, a0, a1, a2, a3, a4, a5, a6]
  show Cert.EdgeScore.score _ _ _ _ _ = Cert.EdgeScore.Kernel.scores m c
  unfold Cert.EdgeScore.Kernel.scores
  rw [Cert.EdgeScore.Features.features_eq m c]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
